-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S25165824 : Shape := ⟨1, ![25165824]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel
  bcast_S_S25165824 : S_.BroadcastsInDim S25165824 (![] : Fin 0 → Fin S25165824.rank)
  reducesTo_S25165824_S_d0 : S25165824.ReducesTo [0] S_

variable [Facts]

def fn {F : FTy → Type} [FloatOps F] (main_arg0 : FVec F S33554432 .f32) (main_arg1 : FVec F S25165824 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S25165824 .f32 := Host.absf main_arg1
  let main_cst_0 : FVec F S_ .f32 := constant S_ .f32 0x7F800000#32
  let main_v5 : FVec F S25165824 .f32 := broadcastInDim S25165824 ![] bcast_S_S25165824 main_cst_0
  let main_v6 : IVec S25165824 1 := cmpf .olt main_v4 main_v5
  let main_c_1 : IVec S_ 1 := constantI S_ 1 1#1
  let main_v7 : IVec S_ 1 := (fun x v => Host.reduce IntOp.andi x v reducesTo_S25165824_S_d0 h_S_) main_v6 main_c_1
  let main_v8 : IVec S_ 1 := andi main_v3 main_v7
  main_v8
-- ==== Kernel.lean ====
abbrev S33554432 : Shape := ⟨1, ![33554432]⟩
abbrev S25165824 : Shape := ⟨1, ![25165824]⟩
abbrev S262144x128 : Shape := ⟨2, ![262144, 128]⟩
abbrev S196608x128 : Shape := ⟨2, ![196608, 128]⟩
abbrev S1x1 : Shape := ⟨2, ![1, 1]⟩
abbrev S16384x128 : Shape := ⟨2, ![16384, 128]⟩
abbrev S1x16384x128 : Shape := ⟨3, ![1, 16384, 128]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S25165824, .f32⟩
  | .hbm, ⟨2, _⟩ => ⟨S262144x128, .f32⟩
  | .hbm, ⟨3, _⟩ => ⟨S196608x128, .f32⟩
  | .hbm, ⟨4, _⟩ => ⟨S1x1, .f32⟩
  | .hbm, ⟨5, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  shapeCasts_S25165824_S196608x128 : S25165824.ShapeCasts S196608x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S1x16384x128 : S16384x128.ShapeCasts S1x16384x128
  reduces_S1x16384x128_S1 : S1x16384x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S196608x128.size a
  hwx0_1 : ∀ i : grid0.Coords, EltTy.bits .f32 = 32 ∨ (Rect.block (s := S196608x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S25165824 : Shape := ⟨1, ![25165824]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S25165824, .f32⟩
  | .hbm, ⟨2, _⟩ => ⟨S_, .i32⟩
  | .hbm, ⟨3, _⟩ => ⟨S_, .f32⟩
  | .hbm, ⟨4, _⟩ => ⟨S33554432, .f32⟩
  | .hbm, ⟨5, _⟩ => ⟨S_, .i32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S_, .f32⟩
  | .hbm, ⟨12, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  pads_S33554432_S33554432_000 : S33554432.Pads (![0] : Fin 1 → Nat) ![0] ![0] S33554432
  h_S_ : 0 < S_.numel
  pads_S25165824_S33554432_083886080 : S25165824.Pads (![0] : Fin 1 → Nat) ![8388608] ![0] S33554432
  reducesTo_S33554432_S_d0 : S33554432.ReducesTo [0] S_

variable [Facts₀]

class Facts : Prop extends Facts₀ where

variable [Facts]
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.Spec.lean ====
/-
  What both programs compute: the euclidean distance between `t` (2^25 numbers) and `c` (3 · 2^23 numbers) continued
  by zeros to `t`'s length,

      distance t c = √( ∑ₚ (tₚ − c̃ₚ)² ),   c̃ₚ = cₚ for p < 25165824, and 0 from there on,

  over the extended reals, as one function of the two argument vectors (`distance`), the sum running over the flat
  positions `p < 33554432`. The same sum taken block by block (`sumSq_blocks`): the positions are the entries of a
  row-major [262144, 128] matrix whose rows come in 16 blocks of 16384, entry `(q, l)` of block `n` standing at
  position `(n · 16384 + q) · 128 + l` (`pos`); re-grouping needs only that addition on the extended reals is
  commutative and associative, which it is at the infinities too, so nothing is asked of the inputs. Blocks 12 to 15 lie
  wholly past `c`'s end, blocks 0 to 11 wholly inside it (`pos_lt_iff`).
-/
import proofs.«101509_j75668733821525_1_alg».proof.Proof.LibBlockSum

noncomputable section

open scoped BigOperators

namespace Cert.SqDist

open Idealize.ShloMosaic Idealize.ShloMosaic.ValueIdx Cert.Lib.BlockSum

/-- `c` continued by zeros to `t`'s length, at position `p`. -/
def cpad (c : (⟨1, ![25165824]⟩ : Shape).Idx → EReal) (p : Fin 33554432) : EReal :=
  if hp : p.val < 25165824 then c (ix1 ⟨p.val, hp⟩) else 0

theorem cpad_of_lt (c : (⟨1, ![25165824]⟩ : Shape).Idx → EReal) (p : Fin 33554432) (hp : p.val < 25165824) :
    cpad c p = c (ix1 ⟨p.val, hp⟩) := dif_pos hp

theorem cpad_of_not_lt (c : (⟨1, ![25165824]⟩ : Shape).Idx → EReal) (p : Fin 33554432) (hp : ¬p.val < 25165824) :
    cpad c p = 0 := dif_neg hp

/-- The squared difference at position `p`. -/
def sqDiff (t : (⟨1, ![33554432]⟩ : Shape).Idx → EReal) (c : (⟨1, ![25165824]⟩ : Shape).Idx → EReal) (p : Fin 33554432) : EReal :=
  (t (ix1 p) - cpad c p) * (t (ix1 p) - cpad c p)

/-- The sum of the squared differences over all positions. -/
def sumSq (t : (⟨1, ![33554432]⟩ : Shape).Idx → EReal) (c : (⟨1, ![25165824]⟩ : Shape).Idx → EReal) : EReal :=
  ∑ p, sqDiff t c p

/-- The distance, as the contents of a scalar array. -/
def distance (t : (⟨1, ![33554432]⟩ : Shape).Idx → EReal) (c : (⟨1, ![25165824]⟩ : Shape).Idx → EReal) :
    (⟨0, ![]⟩ : Shape).Idx → EReal :=
  fun _ => Ideal.sqrt (sumSq t c)

theorem rows_lanes : 33554432 = 262144 * 128 := by norm_num
theorem blocks_rows : 262144 = 16 * 16384 := by norm_num

/-- The flat position of entry `(q, l)` of row block `n`: `(n · 16384 + q) · 128 + l`. -/
def pos (n : Fin 16) (q : Fin 16384) (l : Fin 128) : Fin 33554432 :=
  blockRow rows_lanes (blockRow blocks_rows n q) l

theorem pos_val (n : Fin 16) (q : Fin 16384) (l : Fin 128) : (pos n q l).val = (n.val * 16384 + q.val) * 128 + l.val := rfl

/-- A block's positions lie inside `c` exactly for the first twelve blocks. -/
theorem pos_lt_iff (n : Fin 16) (q : Fin 16384) (l : Fin 128) : (pos n q l).val < 25165824 ↔ n.val < 12 := by
  rw [pos_val]
  have hq := q.isLt
  have hl := l.isLt
  omega

/-- The sum over all positions, block by block and entry by entry. -/
theorem sumSq_blocks (t : (⟨1, ![33554432]⟩ : Shape).Idx → EReal) (c : (⟨1, ![25165824]⟩ : Shape).Idx → EReal) :
    sumSq t c = ∑ n : Fin 16, ∑ y : (⟨2, ![16384, 128]⟩ : Shape).Idx, sqDiff t c (pos n (y 0) (y 1)) := by
  unfold sumSq
  rw [sum_fin_blocks rows_lanes, sum_fin_blocks blocks_rows]
  refine Finset.sum_congr rfl fun n _ => ?_
  rw [sum_idx2]
  rfl

end Cert.SqDist

end
-- ==== Proof.LibPadRead.lean ====
/-
  A vector padded on its high side, read at a position.

  `stablehlo.pad` of a rank-1 operand of `n` elements with nothing before it, nothing between its elements and `hi`
  copies of the padding value after it: position `p` of the result is the operand's element `p` when `p < n` and the
  padding value otherwise (`pad_high_apply`). With `hi = 0` it is the operand itself. Generic in the sizes and in the
  element type.
-/
import Idealize.ShloMosaic.Lib.ValueIdx

namespace Cert.Lib.PadRead

open Idealize.ShloMosaic Idealize.ShloMosaic.ValueIdx

/-- Position `p` of a rank-1 vector padded only on its high side: the operand there while `p` is inside it, else the
    padding value. -/
theorem pad_high_apply {α : Type} {n n' hi : ℕ} (x : (⟨1, ![n]⟩ : Shape).Idx → α) {u : Shape} (v : u.Idx → α)
    (h : (⟨1, ![n]⟩ : Shape).Pads ![0] ![hi] ![0] ⟨1, ![n']⟩) (hu : 0 < u.numel) (p : Fin n') :
    pad (⟨1, ![n']⟩ : Shape) ![0] ![hi] ![0] x v h hu (ix1 p)
      = if hp : p.val < n then x (ix1 ⟨p.val, hp⟩) else v (Shape.Idx.first hu) := by
  unfold pad
  by_cases hp : p.val < n
  · rw [dif_pos hp, dif_pos (fun a => by
      match a with
      | ⟨0, _⟩ => exact ⟨Nat.zero_le _, by simp [Nat.mod_one], by simpa using hp⟩)]
    refine congrArg x (funext fun a => ?_)
    match a with
    | ⟨0, _⟩ => exact Fin.ext (by simp)
  · rw [dif_neg hp, dif_neg]
    intro hin
    have h0 := (hin ⟨0, Nat.one_pos⟩).2.2
    exact hp (by simpa using h0)

end Cert.Lib.PadRead
-- ==== Proof.RefValue.lean ====
/-
  The reference computes the distance of Spec.lean.

  The reference pads `t` by nothing and `c` by 8388608 zeros on its high side (the padding value is the integer 0
  converted to a float: the real 0), subtracts, squares, sums all 33554432 entries from the zero and takes the square
  root. Read at a flat position `p`: the padded `t` is `t` at `p`, the padded `c` is `c` at `p` while `p` is inside
  `c` and 0 after it — the zero continuation `cpad` — so each summand is `sqDiff t c p`, and the host's total sum from 0 is the
  sum over the positions.
-/
import proofs.«101509_j75668733821525_1_alg».proof.Proof.Gen.ReferenceIdeal.Read
import proofs.«101509_j75668733821525_1_alg».proof.Proof.Spec
import proofs.«101509_j75668733821525_1_alg».proof.Proof.LibPadRead
import Idealize.ShloMosaic.Lib.ValueIdxRank1

noncomputable section

open scoped BigOperators

namespace Cert.ReferenceIdeal.RefValue

open Cert.ReferenceIdeal Cert.ReferenceIdeal.Read Idealize.ShloMosaic Idealize.ShloMosaic.ValueIdx
open Cert.SqDist Cert.Lib.PadRead

/-- The value `c` is padded with: the integer 0 as a float, the real 0. -/
theorem padval (i : S_.Idx) : val_main_call1_v0 (F := Ideal) i = 0 := by
  rw [val_main_call1_v0_apply, val_main_c_0_apply]
  show (((0#32 : BitVec 32).toInt : ℝ) : EReal) = 0
  simp

/-- Padding `t` by nothing leaves it as it is. -/
theorem t_read (x0 : (⟨S33554432, .f32⟩ : BufTy).Contents (Elt Ideal)) (p : Fin 33554432) :
    val_main_v0 (F := Ideal) x0 (ix1 p) = x0 (ix1 p) := by
  unfold val_main_v0
  rw [pad_high_apply, dif_pos p.isLt]

/-- The padded `c` is `c` continued by zeros. -/
theorem c_read (x1 : (⟨S25165824, .f32⟩ : BufTy).Contents (Elt Ideal)) (p : Fin 33554432) :
    val_main_v1 (F := Ideal) x1 (ix1 p) = cpad x1 p := by
  unfold val_main_v1 cpad
  rw [pad_high_apply]
  by_cases hp : p.val < 25165824
  · rw [dif_pos hp, dif_pos hp]
  · rw [dif_neg hp, dif_neg hp]
    exact padval _

/-- The reference's result is the distance. -/
theorem result_eq (x0 : (⟨S33554432, .f32⟩ : BufTy).Contents (Elt Ideal)) (x1 : (⟨S25165824, .f32⟩ : BufTy).Contents (Elt Ideal)) :
    val_main_v5 (F := Ideal) x0 x1 = distance x0 x1 := by
  funext i
  rw [val_main_v5_apply, val_main_v4_apply, val_main_cst_apply]
  unfold distance sumSq
  rw [Ideal.hostUnary_sqrt_def, Ideal.ofBits_def, Ideal.ofBits_zero_f32, zero_add]
  refine congrArg Ideal.sqrt ?_
  rw [← Equiv.sum_comp (idxEquiv1 (n := 33554432)).symm]
  refine Finset.sum_congr rfl fun p _ => ?_
  show val_main_v3 (F := Ideal) x0 x1 (ix1 p) = sqDiff x0 x1 p
  rw [val_main_v3_apply, val_main_v2_apply, t_read, c_read]
  rfl

end Cert.ReferenceIdeal.RefValue

end
-- ==== Proof.KernelPieces.lean ====
/-
  What one run of the kernel body leaves behind, case by case, as values.

  The body keeps a running sum in a one-element scratch. At the first grid point it stores zero there, reads it back and
  stores the zero plus this block's sum of squared differences; at every later point it stores what the point before
  left plus this block's sum; at the last point it also stores the square root of the scratch into the output block.
  The generated frame states each case's result as the stored pieces read back; here each is identified with the body's
  arithmetic (`k0_pay1`: the zero; `k0_pay2 i x₀ x₁ acc`: `acc` plus the block's sum; `k0_pay3`: the square root): a store
  that covers the whole one-element buffer leaves exactly its value, and a load after it reads that value back.
  Generic in the float instance.
-/
import proofs.«101509_j75668733821525_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point (neither first nor last): the scratch ends at what it held plus the block's sum. -/
theorem scratch_B (c : Dev nD) (i : grid0.Coords) (a1 : Memref sig .tc .vmem S16384x128 .f32) (h1 : a1.IsWhole)
    (a2 : Memref sig .tc .vmem S16384x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S16384x128 .f32) (xs0 : Vec F S1x1 .f32) :
    sout0_B_0 c i a1 h1 a2 h2 a3 h3 a4 h4 hc0 hc1 x0 x1 xs0 = k0_pay2 i x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S16384x128) hz,
    View.ld_unit_zero (S := S1x1) hz]

/-- The last point: the scratch likewise. -/
theorem scratch_C (c : Dev nD) (i : grid0.Coords) (a1 : Memref sig .tc .vmem S16384x128 .f32) (h1 : a1.IsWhole)
    (a2 : Memref sig .tc .vmem S16384x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16384x128 .f32) (xs0 : Vec F S1x1 .f32) :
    sout0_C_0 c i a1 h1 a2 h2 a3 h3 a4 h4 hc0 hc1 x0 x1 xs0 = k0_pay2 i x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S16384x128) hz,
    View.ld_unit_zero (S := S1x1) hz]

/-- The last point: the output block ends at the square root of the scratch's final value. -/
theorem out_C (c : Dev nD) (i : grid0.Coords) (a1 : Memref sig .tc .vmem S16384x128 .f32) (h1 : a1.IsWhole)
    (a2 : Memref sig .tc .vmem S16384x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S16384x128 .f32) (xs0 : Vec F S1x1 .f32) :
    out0_C_2 c i a1 h1 a2 h2 a3 h3 a4 h4 hc0 hc1 x0 x1 xs0 = k0_pay3 (k0_pay2 i x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  simp only [View.readCov_unit_zero (S := S1x1) _ hz, View.readAt_eq_ld, h1.read_unread, h2.read_unread, h4.read_unread,
    View.ld_unit_zero (S := S16384x128) hz, View.ld_unit_zero (S := S1x1) hz]

/-- The first point: the scratch ends at zero plus the block's sum. -/
theorem scratch_A (c : Dev nD) (i : grid0.Coords) (a1 : Memref sig .tc .vmem S16384x128 .f32) (h1 : a1.IsWhole)
    (a2 : Memref sig .tc .vmem S16384x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S16384x128 .f32) :
    sout0_A_0 c i a1 h1 a2 h2 a3 h3 a4 h4 hc0 hc1 x0 x1 = k0_pay2 i x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  simp only [View.readCov_unit_zero (S := S1x1) _ hz, View.readAt_eq_ld, h1.read_unread, h2.read_unread,
    View.ld_unit_zero (S := S16384x128) hz]

end Cert.KernelIdeal.Pieces

end
-- ==== Proof.KernelArith.lean ====
/-
  The body's arithmetic over the extended reals.

  One run of the body adds to the running sum `acc` the sum, over the 16384 × 128 entries `y` of the two input blocks, of
  `(x₀ y − x̃₁ y)²`, where `x̃₁` is `c`'s block while the grid coordinate is below 12 and zero from there on (`masked`):
  the body squares the differences entrywise, reshapes the block to [1, 16384, 128] and reduces its two long axes into
  one number (a total sum: the reshape only re-arranges the entries), and adds that number to the scratch's one entry. The
  reset stores the real 0, and the closing store takes the square root.
-/
import proofs.«101509_j75668733821525_1_alg».proof.Proof.Gen.KernelIdeal.Skeleton
import proofs.«101509_j75668733821525_1_alg».proof.Proof.LibBlockSum
import Idealize.ShloMosaic.Lib.Pipeline.Value
import Idealize.ShloMosaic.PureOps.Ideal.Laws

noncomputable section

open scoped BigOperators

namespace Cert.KernelIdeal.Arith

open Cert.KernelIdeal Cert.KernelIdeal.Gen Idealize.ShloMosaic Idealize.ShloMosaic.ValueIdx Cert.Lib.BlockSum

/-- `c`'s block as the body uses it at grid coordinate `i`: the block itself below coordinate 12, zeros from there on. -/
def masked (i : grid0.Coords) (x1 : Vec Ideal S16384x128 .f32) : Vec Ideal S16384x128 .f32 :=
  Scalar.select (Scalar.cmpi .slt (BitVec.ofNat 32 (i 0).val) 12#32) x1
    (broadcast S16384x128 (Scalar.ofBits (F := Ideal) .f32 0x00000000#32))

/-- The reset stores the real 0. -/
theorem pay1_apply (z : S1x1.Idx) : k0_pay1 (F := Ideal) z = 0 := by
  unfold k0_pay1
  simp only [shapeCast_self]
  exact Ideal.ofBits_zero_f32

/-- One run's update of the running sum. -/
theorem pay2_apply (i : grid0.Coords) (x0 x1 : Vec Ideal S16384x128 .f32) (acc : Vec Ideal S1x1 .f32) (z : S1x1.Idx) :
    k0_pay2 (F := Ideal) i x0 x1 acc z
      = acc z + ∑ y : S16384x128.Idx, (x0 y - masked i x1 y) * (x0 y - masked i x1 y) := by
  unfold k0_pay2
  simp only [shapeCast_self]
  rw [addf_apply, broadcast_apply]
  refine congrArg (acc z + ·) ?_
  have hred : ∀ (src : FVec Ideal S1x16384x128 .f32) (j : S1.Idx),
      multiReduction .add [1, 2] S1 src 0x00000000#32 reduces_S1x16384x128_S1 (.inl rfl) rfl j = ∑ k, src k :=
    fun src j => Ideal.multiReduction_add_total src _ reduces_S1x16384x128_S1
      (fun b => by match b with | ⟨0, _⟩ => rfl) _ _ j
  show multiReduction .add [1, 2] S1 _ 0x00000000#32 reduces_S1x16384x128_S1 (.inl rfl) rfl _ = _
  rw [hred, sum_shapeCast]
  exact Finset.sum_congr rfl fun y _ => rfl

/-- The closing store's value: the square root of the scratch's entry. -/
theorem pay3_apply (v : Vec Ideal S1x1 .f32) (z : S1x1.Idx) : k0_pay3 (F := Ideal) v z = Ideal.sqrt (v z) := by
  unfold k0_pay3
  rfl

end Cert.KernelIdeal.Arith

end
-- ==== Proof.KernelValue.lean ====
/-
  The idealized kernel computes the distance of Spec.lean.

  The host first reshapes `t` to [262144, 128] and `c` to [196608, 128]; a reshape keeps row-major positions. Grid point
  `n` (of 16) sees rows `n · 16384 …` of `t`'s matrix — entry `(q, l)` of its block is `t` at position
  `(n · 16384 + q) · 128 + l` — and the block of `c`'s matrix with index `min n 11`, which for `n < 12` is `c` at the same
  position; for `n ≥ 12` the body replaces that block by zeros. So the masked block is the zero continuation of `c` at
  the block's positions, and the point's contribution is the sum of `sqDiff t c` over them (`blockSum_eq`).
  The one-entry scratch holds, after point `n`, the sum of the contributions of points `0 … n` (`scratch_eq`, by induction
  on the point: the first point stores `0 +` its contribution, each later one adds its own to what the point before left).
  The last point stores the square root of the scratch into the [1, 1] result, the only block ever written back, which is
  the whole result array; the host reshapes it to a scalar. Sixteen block sums are the sum over all positions
  (Spec.lean's `sumSq_blocks`), so the program ends with the distance.
-/
import proofs.«101509_j75668733821525_1_alg».proof.Proof.Gen.KernelIdeal.Frame
import proofs.«101509_j75668733821525_1_alg».proof.Proof.KernelPieces
import proofs.«101509_j75668733821525_1_alg».proof.Proof.KernelArith
import proofs.«101509_j75668733821525_1_alg».proof.Proof.Spec
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Pieces Cert.KernelIdeal.Arith
open Idealize.ShloMosaic.ValueIdx Cert.SqDist

variable (m : (ℓ : Loc nD τ sig) → Buf (Elt Ideal) ℓ) (ρ : Dev nD → PrngReg)

/-- The two argument vectors on core `c`. -/
abbrev tArr (c : Dev nD) : S33554432.Idx → EReal := m ((c : Thread nD τ).loc main_arg0)
abbrev cArr (c : Dev nD) : S25165824.Idx → EReal := m ((c : Thread nD τ).loc main_arg1)

/-! ## The matrices the region finds, and their blocks -/

/-- The region finds `t` reshaped to [262144, 128]; -/
theorem V_v0 (c : Dev nD) :
    (V m c main_v0 : S262144x128.Idx → EReal) = shapeCast S262144x128 (tArr m c) shapeCasts_S33554432_S262144x128 := by
  show StableHlo.after hostOps0 (fun b => m (c, b)) (Proc.devRef .tc main_v0) = _
  after_results
  rfl

/-- and `c` reshaped to [196608, 128]. -/
theorem V_v1 (c : Dev nD) :
    (V m c main_v1 : S196608x128.Idx → EReal) = shapeCast S196608x128 (cArr m c) shapeCasts_S25165824_S196608x128 := by
  show StableHlo.after hostOps0 (fun b => m (c, b)) (Proc.devRef .tc main_v1) = _
  after_results
  rfl

/-- `t`'s window is at block `n` at point `n`; -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- `c`'s window is at block `min n 11`; -/
theorem idx1 : ∀ t : Fin cfg0.N, win0_1.index t (0 : Fin 2) = min t.val 11 ∧ win0_1.index t (1 : Fin 2) = 0 :=
  (by decide +kernel : ∀ t : Fin grid0.N, win0_1.index t (0 : Fin 2) = min t.val 11 ∧ win0_1.index t (1 : Fin 2) = 0)

/-- and the body's comparison "coordinate below 12" is what it says. -/
theorem lt12 : ∀ t : Fin cfg0.N, Scalar.cmpi .slt (BitVec.ofNat 32 ((grid0.coords t) 0).val) 12#32 = 1#1 ↔ t.val < 12 :=
  (by decide +kernel : ∀ t : Fin grid0.N, Scalar.cmpi .slt (BitVec.ofNat 32 ((grid0.coords t) 0).val) 12#32 = 1#1 ↔ t.val < 12)

/-- The two input blocks at point `t`, at their literal type. -/
abbrev tblk (c : Dev nD) (t : Fin cfg0.N) : Vec Ideal S16384x128 .f32 := iblk m c 0 t
abbrev cblk (c : Dev nD) (t : Fin cfg0.N) : Vec Ideal S16384x128 .f32 := iblk m c 1 t

/-- Entry `y` of `t`'s block at point `n` is `t` at position `(n · 16384 + y₀) · 128 + y₁`. -/
theorem tblk_apply (c : Dev nD) (t : Fin cfg0.N) (y : S16384x128.Idx) :
    tblk m c t y = tArr m c (ix1 (pos (t.cast N_0) (y 0) (y 1))) := by
  show iblk m c 0 t y = _
  unfold iblk
  rw [View.read_apply]
  show V m c main_v0 (((cfg0.win 0).blk t).view.emb y) = _
  refine (congrFun (V_v0 m c) _).trans ?_
  refine shapeCast_apply _ _ _ _ ?_
  rw [Shape.rowMajor_val_one, Shape.rowMajor_val_two]
  show (t.val * 16384 + (y 0).val) * 128 + (y 1).val
    = (win0_0.index t 0 * 16384 + 1 * (y 0).val) * 128 + (win0_0.index t 1 * 128 + 1 * (y 1).val)
  rw [(idx0 t).1, (idx0 t).2]
  omega

/-- For the first twelve points entry `y` of `c`'s block is `c` at the same position. -/
theorem cblk_apply (c : Dev nD) (t : Fin cfg0.N) (ht : t.val < 12) (y : S16384x128.Idx) :
    cblk m c t y = cArr m c (ix1 ⟨(pos (t.cast N_0) (y 0) (y 1)).val, (pos_lt_iff _ _ _).mpr ht⟩) := by
  show iblk m c 1 t y = _
  unfold iblk
  rw [View.read_apply]
  show V m c main_v1 (((cfg0.win 1).blk t).view.emb y) = _
  refine (congrFun (V_v1 m c) _).trans ?_
  refine shapeCast_apply _ _ _ _ ?_
  rw [Shape.rowMajor_val_one, Shape.rowMajor_val_two]
  show (t.val * 16384 + (y 0).val) * 128 + (y 1).val
    = (win0_1.index t 0 * 16384 + 1 * (y 0).val) * 128 + (win0_1.index t 1 * 128 + 1 * (y 1).val)
  rw [(idx1 t).1, (idx1 t).2]
  have hmin : min t.val 11 = t.val := by omega
  rw [hmin]
  omega

/-- The block of `c` as the body uses it is the zero continuation of `c` at the block's positions. -/
theorem masked_apply (c : Dev nD) (t : Fin cfg0.N) (y : S16384x128.Idx) :
    masked (grid0.coords t) (cblk m c t) y = cpad (cArr m c) (pos (t.cast N_0) (y 0) (y 1)) := by
  unfold masked
  by_cases ht : t.val < 12
  · rw [(lt12 t).mpr ht, select_one]
    exact (cblk_apply m c t ht y).trans (cpad_of_lt _ _ ((pos_lt_iff _ _ _).mpr ht)).symm
  · have h0 : Scalar.cmpi .slt (BitVec.ofNat 32 ((grid0.coords t) 0).val) 12#32 = 0#1 :=
      eq_zero_of_ne_one fun h => ht ((lt12 t).mp h)
    rw [h0, select_zero]
    exact Ideal.ofBits_zero_f32.trans (cpad_of_not_lt _ _ fun h => ht ((pos_lt_iff _ _ _).mp h)).symm

/-! ## The contributions and the running sum -/

/-- Point `t`'s contribution: the sum of the squared differences over its blocks' entries. -/
def blockSum (c : Dev nD) (t : Fin cfg0.N) : EReal :=
  ∑ y : S16384x128.Idx, (tblk m c t y - masked (grid0.coords t) (cblk m c t) y)
    * (tblk m c t y - masked (grid0.coords t) (cblk m c t) y)

/-- It is the sum of `sqDiff t c` over the block's positions. -/
theorem blockSum_eq (c : Dev nD) (t : Fin cfg0.N) :
    blockSum m c t = ∑ y : S16384x128.Idx, sqDiff (tArr m c) (cArr m c) (pos (t.cast N_0) (y 0) (y 1)) := by
  unfold blockSum sqDiff
  refine Finset.sum_congr rfl fun y _ => ?_
  rw [tblk_apply, masked_apply]

/-- The contributions listed by a natural number (zero past the grid), to sum them over an initial segment. -/
def contrib (c : Dev nD) (k : ℕ) : EReal := if h : k < cfg0.N then blockSum m c ⟨k, h⟩ else 0

theorem contrib_of_lt (c : Dev nD) (k : ℕ) (h : k < cfg0.N) : contrib m c k = blockSum m c ⟨k, h⟩ := dif_pos h

/-- One run of the body from a scratch holding `xs`: it ends holding `xs` plus the point's contribution. -/
theorem step (c : Dev nD) (t : Fin cfg0.N) (xs : Vec Ideal S1x1 .f32) (z : S1x1.Idx) :
    k0_pay2 (F := Ideal) (grid0.coords t) (iblk m c 0 t) (iblk m c 1 t) xs z = xs z + contrib m c t.val := by
  refine (pay2_apply (grid0.coords t) (tblk m c t) (cblk m c t) xs z).trans ?_
  rw [contrib_of_lt m c t.val t.isLt]
  rfl

/-- THE RUNNING SUM: after point `n` the scratch holds the contributions of points `0 … n`. -/
theorem scratch_eq (c : Dev nD) : ∀ (n : ℕ) (hn : n < cfg0.N),
    (outsAt0 m c n hn).2 = fun _ => ∑ k ∈ Finset.range (n + 1), contrib m c k
  | 0, hn => by
    rw [outsAt0_A m c ⟨0, hn⟩ rfl (by dsimp only; omega)]
    dsimp only
    refine (scratch_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) _ _ (iblk m c 0 ⟨0, hn⟩) (iblk m c 1 ⟨0, hn⟩)).trans ?_
    funext z
    rw [step m c ⟨0, hn⟩, pay1_apply, zero_add, Finset.sum_range_one]
  | n + 1, hn => by
    have hN : cfg0.N = 16 := N_0
    have h0 : ¬(⟨n + 1, hn⟩ : Fin cfg0.N).val % 16 = 0 := by dsimp only; omega
    have ih := scratch_eq c n (Nat.lt_of_succ_lt hn)
    by_cases h1 : (⟨n + 1, hn⟩ : Fin cfg0.N).val % 16 = 15
    · rw [outsAt0_C m c ⟨n + 1, hn⟩ h0 h1]
      dsimp only
      refine (scratch_C (F := Ideal) c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) scM0_0 (Memref.isWhole_whole _) _ _
        (iblk m c 0 ⟨n + 1, hn⟩) (iblk m c 1 ⟨n + 1, hn⟩) _).trans ?_
      funext z
      rw [step m c ⟨n + 1, hn⟩, Finset.sum_range_succ _ (n + 1)]
      exact congrArg (· + contrib m c (n + 1)) (congrFun ih z)
    · rw [outsAt0_B m c ⟨n + 1, hn⟩ h0 h1]
      dsimp only
      refine (scratch_B (F := Ideal) c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) scM0_0 (Memref.isWhole_whole _) _ _
        (iblk m c 0 ⟨n + 1, hn⟩) (iblk m c 1 ⟨n + 1, hn⟩) _).trans ?_
      funext z
      rw [step m c ⟨n + 1, hn⟩, Finset.sum_range_succ _ (n + 1)]
      exact congrArg (· + contrib m c (n + 1)) (congrFun ih z)

/-- The sum of all sixteen contributions. -/
def total (c : Dev nD) : EReal := ∑ k ∈ Finset.range 16, contrib m c k

/-- It is the sum of the squared differences over all positions. -/
theorem total_eq (c : Dev nD) : total m c = sumSq (tArr m c) (cArr m c) := by
  rw [sumSq_blocks]
  unfold total
  rw [Finset.sum_range]
  refine Finset.sum_congr rfl fun n _ => ?_
  have hn : n.val < cfg0.N := by rw [show cfg0.N = 16 from N_0]; exact n.isLt
  rw [contrib_of_lt m c n.val hn, blockSum_eq]
  rfl

/-- What the last point stores into the result block: the square root of the total. -/
theorem out_last (c : Dev nD) (h15 : 15 < cfg0.N) : (outsAt0 m c 15 h15).1 = fun _ => Ideal.sqrt (total m c) := by
  rw [outsAt0_C m c ⟨15, h15⟩ (by dsimp only; omega) (by dsimp only)]
  dsimp only
  refine (out_C (F := Ideal) c (grid0.coords ⟨15, h15⟩) (ms0_0 ⟨15, h15⟩) (hs0_0 ⟨15, h15⟩) (ms0_1 ⟨15, h15⟩) (hs0_1 ⟨15, h15⟩)
    (ms0_2 ⟨15, h15⟩) (hs0_2 ⟨15, h15⟩) scM0_0 (Memref.isWhole_whole _) _ _ (iblk m c 0 ⟨15, h15⟩) (iblk m c 1 ⟨15, h15⟩) _).trans ?_
  funext z
  rw [pay3_apply, step m c ⟨15, h15⟩]
  refine congrArg Ideal.sqrt ?_
  unfold total
  rw [Finset.sum_range_succ _ 15]
  exact congrArg (· + contrib m c 15) (congrFun (scratch_eq m c 14 (Nat.lt_of_succ_lt h15)) z)

/-! ## The result array and the scalar the host makes of it -/

/-- The [1, 1] result array at the end: its one entry is the square root of the total. -/
abbrev res2 (c : Dev nD) : Buf (Elt Ideal) ((c : Thread nD τ).loc main_v2) := fun _ => Ideal.sqrt (total m c)

/-- The one write-back, after the last point, writes exactly that (a constant array read through any block is the
    constant). -/
theorem flushed_eq (c : Dev nD) (t : Fin cfg0.N) (hf : (cfg0.win 2).flush t = true) :
    (dats m 0 c).flushed 2 t = ((cfg0.win 2).blk t).view.read (Elt Ideal) (res2 m c) := by
  have hN : cfg0.N = 16 := N_0
  have h15 : t.val = 15 := by have := (flush0_2 t).mp hf; have := t.isLt; omega
  obtain ⟨n, hn⟩ := t
  dsimp only at h15
  subst h15
  show (cfg0.win 2).cut (grid0.coords ⟨15, hn⟩) ((dats m 0 c).after 2 ⟨15, hn⟩) = _
  rw [after0_2, out_last]
  funext j
  rw [View.read_apply]
  exact (cast_eq _ _).symm

/-- Every entry of the result array (there is one) lies in the block the last point writes back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨t0_15, (flush0_2 t0_15).mpr rfl, ?_⟩
  show i ∈ ((View.whole main_v2).slice (win0_2.rect t0_15)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index t0_15 0 * win0_2.size 0 ≤ (i 0 : Nat)
      ∧ (i 0 : Nat) < win0_2.index t0_15 0 * win0_2.size 0 + win0_2.xsize (grid0.coords t0_15) 0
    rw [show win0_2.index t0_15 0 * win0_2.size 0 = 0 from by decide +kernel,
      show win0_2.xsize (grid0.coords t0_15) 0 = 1 from by decide +kernel]
    omega
  | ⟨1, _⟩ =>
    show win0_2.index t0_15 1 * win0_2.size 1 ≤ (i 1 : Nat)
      ∧ (i 1 : Nat) < win0_2.index t0_15 1 * win0_2.size 1 + win0_2.xsize (grid0.coords t0_15) 1
    rw [show win0_2.index t0_15 1 * win0_2.size 1 = 0 from by decide +kernel,
      show win0_2.xsize (grid0.coords t0_15) 1 = 1 from by decide +kernel]
    omega

/-- So the result array ends holding the square root of the total. -/
theorem final_v2 (c : Dev nD) : (dats m 0 c).arrAt 2 cfg0.N = res2 m c :=
  (dats m 0 c).arrAt_eq_of_cover 2 (res2 m c) (flushed_eq m c) (covered c)

/-- The scalar result: the host's reshape of the [1, 1] array, the distance. -/
theorem result_eq (c : Dev nD) :
    Pipeline.afterTail₀ cfgs (dats m) 0 (V0 m) [hostOps1] c main_v3 = distance (tArr m c) (cArr m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = res2 m c :=
    (Pipeline.withArrays_arr spec0 launch0.win.arr_inj c _ _ 2).trans (final_v2 m c)
  funext i
  show shapeCast S_ (Pipeline.withArrays (cfgs 0).spec c (V0 m c) (fun w => (dats m 0 c).arrAt w (cfgs 0).N)
    (Proc.devRef .tc main_v2)) shapeCasts_S1x1_S_ i = _
  unfold shapeCast
  exact (congrFun hw _).trans (congrArg Ideal.sqrt (total_eq m c))

/-! ## The run -/

/-- Every weakly fair execution of the idealized kernel ends with the distance in its result and its arguments as they
    were. -/
theorem run : θ_run defs (onTc (τ := τ) (main (F := Ideal))) ⟨m, fun _ => 0, ρ⟩ fun r => ∀ c : Dev nD,
      r.2.mem ((c.tc : Thread nD τ).loc main_v3) = distance (tArr m c) (cArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.lean ====
/-
  The kernel and its reference compute one number: the euclidean distance between `t` (2^25 numbers) and `c`
  (3 · 2^23 numbers) continued by zeros to `t`'s length, √(∑ₚ (tₚ − c̃ₚ)²) over the extended reals.

  The kernel reshapes both vectors to 128-column matrices and walks 16 row blocks of 16384 rows: at each it squares the
  differences of `t`'s block and `c`'s block (zeros in place of `c`'s block for the last four, which lie past `c`'s end),
  sums the block's 2097152 squares and adds the sum to a one-entry scratch, reset to zero at the first block; after the
  last block it stores the scratch's square root, which the host reshapes to a scalar. The reference pads `c` with zeros,
  subtracts, squares, sums all 33554432 entries at once and takes the square root. The two differ only in how one finite
  sum is grouped — sixteen block sums added in turn against one total — and addition on the extended reals is commutative
  and associative (at the infinities too), so they agree on every input; the precondition is never opened. The zero that
  pads `c` in the reference (the integer 0 converted) and the zero the kernel selects (the word 0x00000000) are both the
  real 0, and both square roots are the one function on the extended reals.

  Spec.lean states the distance and its block-by-block form; RefValue.lean reads the reference's stages at a position
  (the two pads by LibPadRead.lean); KernelPieces.lean, KernelArith.lean and KernelValue.lean read the kernel's run: what
  each case of the body leaves, its arithmetic, the running sum by induction over the grid points, the result array and
  the host's final reshape. The ideal pass rewrote nothing, so `preserves` is `True`.
-/
import proofs.«101509_j75668733821525_1_alg».proof.Defs
import proofs.«101509_j75668733821525_1_alg».proof.Proof.Gen.Kernel
import proofs.«101509_j75668733821525_1_alg».proof.Proof.Gen.Kernel.Skeleton
import proofs.«101509_j75668733821525_1_alg».proof.Proof.Gen.Kernel.Launch
import proofs.«101509_j75668733821525_1_alg».proof.Proof.Gen.Kernel.Points
import proofs.«101509_j75668733821525_1_alg».proof.Proof.Gen.Kernel.Frame
import proofs.«101509_j75668733821525_1_alg».proof.Proof.Gen.KernelIdeal
import proofs.«101509_j75668733821525_1_alg».proof.Proof.Gen.KernelIdeal.Skeleton
import proofs.«101509_j75668733821525_1_alg».proof.Proof.Gen.KernelIdeal.Launch
import proofs.«101509_j75668733821525_1_alg».proof.Proof.Gen.KernelIdeal.Points
import proofs.«101509_j75668733821525_1_alg».proof.Proof.Gen.KernelIdeal.Frame
import proofs.«101509_j75668733821525_1_alg».proof.Proof.Gen.ReferenceIdeal
import proofs.«101509_j75668733821525_1_alg».proof.Proof.Gen.Pre_finite_inputs
import proofs.«101509_j75668733821525_1_alg».proof.Proof.Gen.ReferenceIdeal.Run
import proofs.«101509_j75668733821525_1_alg».proof.Proof.Gen.ReferenceIdeal.Read
import proofs.«101509_j75668733821525_1_alg».proof.Proof.RefValue
import proofs.«101509_j75668733821525_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both idealized programs end with the distance of their (agreeing) arguments. -/
theorem algebraic : Cert.algebraic_KernelIdeal_ReferenceIdeal := by
  intro m ρ m' ρ' _ hagree
  refine ⟨fun c => Cert.SqDist.distance (Cert.KernelIdeal.KernelValue.tArr m c) (Cert.KernelIdeal.KernelValue.cArr m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
